-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x128 : Shape := ⟨3, ![64, 512, 128]⟩
abbrev S128x16 : Shape := ⟨2, ![128, 16]⟩
abbrev S_ : Shape := ⟨0, ![]⟩

class Facts : Prop where
  bcast_S_S64x512x128 : S_.BroadcastsInDim S64x512x128 (![] : Fin 0 → Fin S64x512x128.rank)
  reducesTo_S64x512x128_S_d0_1_2 : S64x512x128.ReducesTo [0, 1, 2] S_
  h_S_ : 0 < S_.numel
  bcast_S_S128x16 : S_.BroadcastsInDim S128x16 (![] : Fin 0 → Fin S128x16.rank)
  reducesTo_S128x16_S_d0_1 : S128x16.ReducesTo [0, 1] S_

variable [Facts]

def fn {F : FTy → Type} [FloatOps F] (main_arg0 : FVec F S64x512x128 .f32) (main_arg1 : FVec F S128x16 .f32) (main_arg2 : FVec F S128x16 .f32) : IVec S_ 1 :=
  let main_v0 : FVec F S64x512x128 .f32 := Host.absf main_arg0
  let main_cst : FVec F S_ .f32 := constant S_ .f32 0x7F800000#32
  let main_v1 : FVec F S64x512x128 .f32 := broadcastInDim S64x512x128 ![] bcast_S_S64x512x128 main_cst
  let main_v2 : IVec S64x512x128 1 := cmpf .olt main_v0 main_v1
  let main_c : IVec S_ 1 := constantI S_ 1 1#1
  let main_v3 : IVec S_ 1 := (fun x v => Host.reduce IntOp.andi x v reducesTo_S64x512x128_S_d0_1_2 h_S_) main_v2 main_c
  let main_v4 : FVec F S128x16 .f32 := Host.absf main_arg1
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  main_v13
-- ==== Kernel.lean ====
abbrev S64x512x128 : Shape := ⟨3, ![64, 512, 128]⟩
abbrev S128x16 : Shape := ⟨2, ![128, 16]⟩
abbrev S32768x128 : Shape := ⟨2, ![32768, 128]⟩
abbrev S128x128 : Shape := ⟨2, ![128, 128]⟩
abbrev S_ : Shape := ⟨0, ![]⟩
abbrev S128x128x1 : Shape := ⟨3, ![128, 128, 1]⟩
abbrev S1x128x16 : Shape := ⟨3, ![1, 128, 16]⟩
abbrev S128x128x16 : Shape := ⟨3, ![128, 128, 16]⟩
abbrev S128x2048 : Shape := ⟨2, ![128, 2048]⟩
abbrev S1x2048 : Shape := ⟨2, ![1, 2048]⟩
abbrev S32768x2048 : Shape := ⟨2, ![32768, 2048]⟩
abbrev S1024x128 : Shape := ⟨2, ![1024, 128]⟩
abbrev S1024x2048 : Shape := ⟨2, ![1024, 2048]⟩
abbrev S64x512x2048 : Shape := ⟨3, ![64, 512, 2048]⟩

abbrev nBuf : Space → Nat
  | .hbm => 21
  | .vmem => 6
  | .smem => 0
  | _ => 0

abbrev bufTy : (tb : Table) → Fin (tcTables nBuf tb) → BufTy
  | .hbm, ⟨0, _⟩ => ⟨S64x512x128, .f32⟩
  | .hbm, ⟨1, _⟩ => ⟨S128x16, .f32⟩
  | .hbm, ⟨2, _⟩ => ⟨S128x16, .f32⟩
  | .hbm, ⟨3, _⟩ => ⟨S32768x128, .f32⟩
  | .hbm, ⟨4, _⟩ => ⟨S128x128, .i32⟩
  | .hbm, ⟨5, _⟩ => ⟨S128x128, .i32⟩
  | .hbm, ⟨6, _⟩ => ⟨S_, .i32⟩
  | .hbm, ⟨7, _⟩ => ⟨S128x128, .i32⟩
  | .hbm, ⟨8, _⟩ => ⟨S128x128, .i32⟩
  | .hbm, ⟨9, _⟩ => ⟨S128x128, .i1⟩
  | .hbm, ⟨10, _⟩ => ⟨S128x128, .f32⟩
  | .hbm, ⟨11, _⟩ => ⟨S128x128x1, .f32⟩
  | .hbm, ⟨12, _⟩ => ⟨S1x128x16, .f32⟩
  | .hbm, ⟨13, _⟩ => ⟨S128x128x16, .f32⟩
  | .hbm, ⟨14, _⟩ => ⟨S128x128x16, .f32⟩
  | .hbm, ⟨15, _⟩ => ⟨S128x128x16, .f32⟩
  | .hbm, ⟨16, _⟩ => ⟨S128x2048, .f32⟩
  | .hbm, ⟨17, _⟩ => ⟨S128x2048, .bf16⟩
  | .hbm, ⟨18, _⟩ => ⟨S1x2048, .f32⟩
  | .hbm, ⟨19, _⟩ => ⟨S32768x2048, .f32⟩
  | .hbm, ⟨20, _⟩ => ⟨S64x512x2048, .f32⟩
  | .local _ .vmem, ⟨0, _⟩ => ⟨S1024x128, .f32⟩
  | .local _ .vmem, ⟨1, _⟩ => ⟨S1024x128, .f32⟩
  | .local _ .vmem, ⟨2, _⟩ => ⟨S128x2048, .bf16⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | _, _ => ⟨S64x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S64x512x128_S32768x128 : S64x512x128.ShapeCasts S32768x128
  bcast_S_S128x128 : S_.BroadcastsInDim S128x128 (![] : Fin 0 → Fin S128x128.rank)
  bcast_S128x128_S128x128x1_0_1 : S128x128.BroadcastsInDim S128x128x1 (![0, 1] : Fin 2 → Fin S128x128x1.rank)
  bcast_S128x16_S1x128x16_1_2 : S128x16.BroadcastsInDim S1x128x16 (![1, 2] : Fin 2 → Fin S1x128x16.rank)
  bcast_S128x128x1_S128x128x16_0_1_2 : S128x128x1.BroadcastsInDim S128x128x16 (![0, 1, 2] : Fin 3 → Fin S128x128x16.rank)
  bcast_S1x128x16_S128x128x16_0_1_2 : S1x128x16.BroadcastsInDim S128x128x16 (![0, 1, 2] : Fin 3 → Fin S128x128x16.rank)
  shapeCasts_S128x128x16_S128x2048 : S128x128x16.ShapeCasts S128x2048
  bitsLt_bf16_f32 : FTy.bits .bf16 < FTy.bits .f32
  shapeCasts_S128x16_S1x2048 : S128x16.ShapeCasts S1x2048
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  shapeCasts_S32768x2048_S64x512x2048 : S32768x2048.ShapeCasts S64x512x2048
  dot_S1024x128_S128x2048_S1024x2048_1_0_0_1_n_n_wf : DotDims.WF S1024x128 S128x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S32768x128.size a
  hwx0_0 : ∀ i : grid0.Coords, EltTy.bits .f32 = 32 ∨ (Rect.block (s := S32768x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x2048.size a
  hwx0_1 : ∀ i : grid0.Coords, EltTy.bits .bf16 = 32 ∨ (Rect.block (s := S128x2048) S128x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S32768x2048.size a
  hwx0_3 : ∀ i : grid0.Coords, EltTy.bits .f32 = 32 ∨ (Rect.block (s := S32768x2048) S1024x2048.size (cc0_transform_3 i) (hinb0_3 i)).WholeWords (EltTy.packing .f32)

variable [Facts₀]

def dot_S1024x128_S128x2048_S1024x2048_1_0_0_1_n_n : DotDims S1024x128 S128x2048 S1024x2048 where
  lhsContracting := [1]
  rhsContracting := [0]
  lhsNonContracting := [0]
  rhsNonContracting := [1]
  lhsBatch := []
  rhsBatch := []
  wf := dot_S1024x128_S128x2048_S1024x2048_1_0_0_1_n_n_wf

abbrev win0_0 : Pipeline.Window sig grid0 :=
  Pipeline.Window.ofSpec (Memref.whole main_v0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S128x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x512x128 : Shape := ⟨3, ![64, 512, 128]⟩
abbrev S128x16 : Shape := ⟨2, ![128, 16]⟩
abbrev S64x512x128x1 : Shape := ⟨4, ![64, 512, 128, 1]⟩
abbrev S1x1x128x16 : Shape := ⟨4, ![1, 1, 128, 16]⟩
abbrev S64x512x128x16 : Shape := ⟨4, ![64, 512, 128, 16]⟩
abbrev S64x512x2048 : Shape := ⟨3, ![64, 512, 2048]⟩

abbrev nBuf : Space → Nat
  | .hbm => 12
  | .vmem => 0
  | .smem => 0
  | _ => 0

abbrev bufTy : (tb : Table) → Fin (tcTables nBuf tb) → BufTy
  | .hbm, ⟨0, _⟩ => ⟨S64x512x128, .f32⟩
  | .hbm, ⟨1, _⟩ => ⟨S128x16, .f32⟩
  | .hbm, ⟨2, _⟩ => ⟨S128x16, .f32⟩
  | .hbm, ⟨3, _⟩ => ⟨S64x512x128x1, .f32⟩
  | .hbm, ⟨4, _⟩ => ⟨S1x1x128x16, .f32⟩
  | .hbm, ⟨5, _⟩ => ⟨S64x512x128x16, .f32⟩
  | .hbm, ⟨6, _⟩ => ⟨S64x512x128x16, .f32⟩
  | .hbm, ⟨7, _⟩ => ⟨S64x512x128x16, .f32⟩
  | .hbm, ⟨8, _⟩ => ⟨S1x1x128x16, .f32⟩
  | .hbm, ⟨9, _⟩ => ⟨S64x512x128x16, .f32⟩
  | .hbm, ⟨10, _⟩ => ⟨S64x512x128x16, .f32⟩
  | .hbm, ⟨11, _⟩ => ⟨S64x512x2048, .f32⟩
  | _, _ => ⟨S64x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  bcast_S64x512x128_S64x512x128x1_0_1_2 : S64x512x128.BroadcastsInDim S64x512x128x1 (![0, 1, 2] : Fin 3 → Fin S64x512x128x1.rank)
  bcast_S128x16_S1x1x128x16_2_3 : S128x16.BroadcastsInDim S1x1x128x16 (![2, 3] : Fin 2 → Fin S1x1x128x16.rank)
  bcast_S64x512x128x1_S64x512x128x16_0_1_2_3 : S64x512x128x1.BroadcastsInDim S64x512x128x16 (![0, 1, 2, 3] : Fin 4 → Fin S64x512x128x16.rank)
  bcast_S1x1x128x16_S64x512x128x16_0_1_2_3 : S1x1x128x16.BroadcastsInDim S64x512x128x16 (![0, 1, 2, 3] : Fin 4 → Fin S64x512x128x16.rank)
  shapeCasts_S64x512x128x16_S64x512x2048 : S64x512x128x16.ShapeCasts S64x512x2048

variable [Facts₀]

class Facts : Prop extends Facts₀ where

variable [Facts]
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.KernelBody.lean ====
/-
  What the kernel body stores, entry by entry.

  At a grid point the body holds a block of 1024 tokens (`[1024, 128]`), the whole expanded weight matrix
  (`[128, 2048]`) and the one-row bias (`[1, 2048]`). It multiplies the tokens into the matrix from a zero accumulator
  and adds the bias row to every row of the product, so entry `(p, q)` of what it stores is
  `∑ k, tokens (p, k) · matrix (k, q) + bias (0, q)`; the narrowing of the tokens before the product is the identity
  at the ideal values.
-/
import proofs.«150258_j39024072851809_1_alg».proof.Proof.Gen.KernelIdeal.Skeleton
import proofs.«150258_j39024072851809_1_alg».proof.Proof.LibDotFormats
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx
open scoped BigOperators

/-- Entry `(p, q)` of the stored block: the inner product of token `p` with column `q` of the matrix, plus the bias at `q`. -/
theorem stored_apply (v0 : Vec Ideal S1024x128 .f32) (v3 : Vec Ideal S128x2048 .bf16) (v6 : Vec Ideal S1x2048 .f32)
    (p : Fin 1024) (q : Fin 2048) :
    k0_pay1 (F := Ideal) v0 v3 v6 (ix2 p q) = (∑ k : Fin 128, v0 (ix2 p k) * v3 (ix2 k q)) + v6 (ix2 (0 : Fin 1) q) := by
  show (addf (F := Ideal) (matmul dot_S1024x128_S128x2048_S1024x2048_1_0_0_1_n_n none
      (truncf (F := Ideal) .bf16 (shapeCast S1024x128 v0 shapeCasts_S1024x128_S1024x128) bitsLt_bf16_f32)
      (shapeCast S128x2048 v3 shapeCasts_S128x2048_S128x2048) (constant (F := Ideal) S1024x2048 .f32 0x00000000#32))
      (broadcastTo S1024x2048 (shapeCast S1x2048 v6 shapeCasts_S1x2048_S1x2048) broadcasts_S1x2048_S1024x2048)) (ix2 p q) = _
  rw [shapeCast_self, shapeCast_self, shapeCast_self, addf_apply, broadcastTo_1b_ab_apply]
  congr 1
  exact Cert.LibDotFormats.matmul_cols_zero_apply _ rfl rfl rfl rfl rfl rfl none _ _ p q

end Cert.KernelIdeal.Body

end
-- ==== Proof.Spec.lean ====
/-
  The embedding both programs compute, as one function of the three argument arrays.

  Each of the 128 input features of a token carries its own affine map into 16 channels: feature `i` with value `v`
  goes to the sixteen numbers `v · W[i, j] + b[i, j]`, and the 128 groups of 16 are laid side by side, so that
  output column `n` belongs to feature `n / 16` and channel `n % 16`:

      embed x W b (a, t, n) = x (a, t, n / 16) · W (n / 16, n % 16) + b (n / 16, n % 16).

  One side obtains the product through a matrix whose row `k` holds `W[i, ·]` in the columns of feature `i = k` and
  zero in the columns of every other feature, so that the inner product of a token's 128 features with a column
  of that matrix has one non-zero term. `sum_diag` is that collapse, on the extended reals, where `0 · y = 0` and
  `y · 0 = 0` hold for every `y`, the infinities included, so no finiteness is needed.
-/
import Idealize.ShloMosaic.PureOps.Ideal
import Idealize.ShloMosaic.Lib.ValueIdx

noncomputable section

namespace Cert.Embedding

open Idealize.ShloMosaic Idealize.ShloMosaic.ValueIdx
open scoped BigOperators

/-- The feature an output column belongs to. -/
abbrev feat (n : Fin 2048) : Fin 128 := ⟨n.val / 16, by have := n.isLt; omega⟩
/-- The channel an output column holds within its feature's group of sixteen. -/
abbrev chan (n : Fin 2048) : Fin 16 := ⟨n.val % 16, Nat.mod_lt _ (by decide)⟩

/-- Column `n` is channel `chan n` of feature `feat n`. -/
theorem col_eq (n : Fin 2048) : (feat n).val * 16 + (chan n).val = n.val := by
  show n.val / 16 * 16 + n.val % 16 = n.val
  omega

/-- The per-feature affine embedding, index by index. -/
def embed (x : (⟨3, ![64, 512, 128]⟩ : Shape).Idx → EReal) (W b : (⟨2, ![128, 16]⟩ : Shape).Idx → EReal) :
    (⟨3, ![64, 512, 2048]⟩ : Shape).Idx → EReal :=
  fun i => x (ix3 (i 0) (i 1) (feat (i 2))) * W (ix2 (feat (i 2)) (chan (i 2))) + b (ix2 (feat (i 2)) (chan (i 2)))

/-- An inner product against a column that is `w` at position `i` and zero elsewhere is the one product `f i · w`. -/
theorem sum_diag (f : Fin 128 → EReal) (w : EReal) (i : Fin 128) :
    ∑ k : Fin 128, f k * ((if k = i then (1 : EReal) else 0) * w) = f i * w := by
  rw [Finset.sum_eq_single i]
  · rw [if_pos rfl, one_mul]
  · intro k _ hk
    rw [if_neg hk, zero_mul, mul_zero]
  · intro h
    exact absurd (Finset.mem_univ i) h

end Cert.Embedding

end
-- ==== Proof.HostWeights.lean ====
/-
  The expanded weight matrix, read at an index.

  Before the matrix product the weights `W : [128, 16]` are spread into a `[128, 2048]` matrix: the identity pattern
  on `[128, 128]` (row number compared with column number, the truth value turned into a number) is given a trailing
  unit axis and stretched along 16 channels, `W` is given a leading unit axis and stretched along 128 rows, the two
  `[128, 128, 16]` arrays are multiplied entry by entry, and the last two axes are merged. Entry `(k, n)` of the
  result is therefore `[k = n / 16] · W (n / 16, n % 16)`: row `k` carries `W`'s row `k` in the sixteen columns of
  feature `k` and zero everywhere else. The bias `b : [128, 16]` is flattened to one row of 2048 in the same order.
  At the ideal values a change of float format is the identity, so the narrowing of the matrix changes nothing.
-/
import Idealize.ShloMosaic.PureOps.Ideal
import Idealize.ShloMosaic.Lib.ValueIdx
import Idealize.ShloMosaic.Lib.Pipeline.Value
import proofs.«150258_j39024072851809_1_alg».proof.Proof.Spec

noncomputable section

namespace Cert.Embedding

open Idealize.ShloMosaic Idealize.ShloMosaic.ValueIdx

abbrev Sc : Shape := ⟨0, ![]⟩
abbrev Sq : Shape := ⟨2, ![128, 128]⟩
abbrev Sq1 : Shape := ⟨3, ![128, 128, 1]⟩
abbrev Sw : Shape := ⟨2, ![128, 16]⟩
abbrev S1w : Shape := ⟨3, ![1, 128, 16]⟩
abbrev Sqw : Shape := ⟨3, ![128, 128, 16]⟩
abbrev Sm : Shape := ⟨2, ![128, 2048]⟩
abbrev Srow : Shape := ⟨2, ![1, 2048]⟩

/-- Two row or column numbers below 128 are equal as 32-bit words only if they are equal. -/
theorem word_eq_iff (k i : Fin 128) : BitVec.ofNat 32 k.val = BitVec.ofNat 32 i.val ↔ k = i := by
  constructor
  · intro h
    have h' := congrArg BitVec.toNat h
    rw [BitVec.toNat_ofNat, BitVec.toNat_ofNat] at h'
    have hk := k.isLt
    have hi := i.isLt
    apply Fin.ext
    omega
  · intro h
    rw [h]

/-- The identity pattern: row number (plus the zero word) compared with column number, as a number, is one on the
    diagonal and zero off it. -/
theorem eye_apply (h : Sc.BroadcastsInDim Sq ![]) (k i : Fin 128) :
    (uitofp (F := Ideal) .f32 (cmpi .eq (addi (iotaInDim Sq 32 0) (broadcastInDim Sq ![] h (constantI Sc 32 0#32)))
      (iotaInDim Sq 32 1)) : FVec Ideal Sq .f32) (ix2 k i) = if k = i then (1 : EReal) else 0 := by
  show (((IntOp.cmpi .eq (IntOp.addi (BitVec.ofNat 32 k.val) 0#32) (BitVec.ofNat 32 i.val)).toNat : ℝ) : EReal) = _
  have hb : IntOp.cmpi .eq (IntOp.addi (BitVec.ofNat 32 k.val) 0#32) (BitVec.ofNat 32 i.val)
      = BitVec.ofBool (decide (k = i)) := by
    unfold IntOp.addi IntOp.cmpi
    rw [BitVec.add_zero]
    congr 1
    rw [Bool.eq_iff_iff, beq_iff_eq, decide_eq_true_iff]
    exact word_eq_iff k i
  rw [hb]
  by_cases hki : k = i
  · rw [if_pos hki, decide_eq_true hki]
    simp
  · rw [if_neg hki, decide_eq_false hki]
    simp

/-- The identity pattern with a trailing unit axis, stretched over the 16 channels: entry `(k, i, j)` is entry
    `(k, i)` of the pattern. -/
theorem stretch_eye_apply (h1 : Sq.BroadcastsInDim Sq1 ![0, 1]) (h2 : Sq1.BroadcastsInDim Sqw ![0, 1, 2])
    (E : Sq.Idx → EReal) (k i : Fin 128) (j : Fin 16) :
    broadcastInDim Sqw ![0, 1, 2] h2 (broadcastInDim Sq1 ![0, 1] h1 E) (ix3 k i j) = E (ix2 k i) := by
  rw [broadcastInDim_apply ![0, 1, 2] h2 _ (ix3 k i j) (ix3 k i (0 : Fin 1)) (fun a => match a with
    | ⟨0, _⟩ => by show k.val = if (128 : Nat) = 1 then 0 else k.val; rw [if_neg (by decide)]
    | ⟨1, _⟩ => by show i.val = if (128 : Nat) = 1 then 0 else i.val; rw [if_neg (by decide)]
    | ⟨2, _⟩ => by show 0 = if (1 : Nat) = 1 then 0 else j.val; rw [if_pos rfl])]
  exact broadcastInDim_apply ![0, 1] h1 E (ix3 k i (0 : Fin 1)) (ix2 k i) (fun a => match a with
    | ⟨0, _⟩ => by show k.val = if (128 : Nat) = 1 then 0 else k.val; rw [if_neg (by decide)]
    | ⟨1, _⟩ => by show i.val = if (128 : Nat) = 1 then 0 else i.val; rw [if_neg (by decide)])

/-- The weights with a leading unit axis, stretched over the 128 rows: entry `(k, i, j)` is `W (i, j)`. -/
theorem stretch_w_apply (h1 : Sw.BroadcastsInDim S1w ![1, 2]) (h2 : S1w.BroadcastsInDim Sqw ![0, 1, 2])
    (W : Sw.Idx → EReal) (k i : Fin 128) (j : Fin 16) :
    broadcastInDim Sqw ![0, 1, 2] h2 (broadcastInDim S1w ![1, 2] h1 W) (ix3 k i j) = W (ix2 i j) := by
  rw [broadcastInDim_apply ![0, 1, 2] h2 _ (ix3 k i j) (ix3 (0 : Fin 1) i j) (fun a => match a with
    | ⟨0, _⟩ => by show 0 = if (1 : Nat) = 1 then 0 else k.val; rw [if_pos rfl]
    | ⟨1, _⟩ => by show i.val = if (128 : Nat) = 1 then 0 else i.val; rw [if_neg (by decide)]
    | ⟨2, _⟩ => by show j.val = if (16 : Nat) = 1 then 0 else j.val; rw [if_neg (by decide)])]
  exact broadcastInDim_apply ![1, 2] h1 W (ix3 (0 : Fin 1) i j) (ix2 i j) (fun a => match a with
    | ⟨0, _⟩ => by show i.val = if (128 : Nat) = 1 then 0 else i.val; rw [if_neg (by decide)]
    | ⟨1, _⟩ => by show j.val = if (16 : Nat) = 1 then 0 else j.val; rw [if_neg (by decide)])

/-- Merging the feature and channel axes: entry `(k, n)` of the `[128, 2048]` matrix is entry
    `(k, n / 16, n % 16)` of the `[128, 128, 16]` array. -/
theorem merge_apply (h : Sqw.ShapeCasts Sm) (Y : Sqw.Idx → EReal) (k : Fin 128) (n : Fin 2048) :
    shapeCast Sm Y h (ix2 k n) = Y (ix3 k (feat n) (chan n)) := by
  refine shapeCast_apply Y h (ix2 k n) (ix3 k (feat n) (chan n)) ?_
  rw [Shape.rowMajor_val_three, Shape.rowMajor_val_two]
  show (k.val * 128 + n.val / 16) * 16 + n.val % 16 = k.val * 2048 + n.val
  omega

/-- THE EXPANDED WEIGHTS: entry `(k, n)` is `W (n / 16, n % 16)` when `k` is column `n`'s feature, and zero otherwise. -/
theorem weights_apply (h0 : Sc.BroadcastsInDim Sq ![]) (h1 : Sq.BroadcastsInDim Sq1 ![0, 1])
    (h2 : Sq1.BroadcastsInDim Sqw ![0, 1, 2]) (h3 : Sw.BroadcastsInDim S1w ![1, 2]) (h4 : S1w.BroadcastsInDim Sqw ![0, 1, 2])
    (h5 : Sqw.ShapeCasts Sm) (h6 : FTy.bits .bf16 < FTy.bits .f32) (W : FVec Ideal Sw .f32) (k : Fin 128) (n : Fin 2048) :
    (truncf (F := Ideal) .bf16 (shapeCast Sm (mulf (F := Ideal) (φ := .f32)
        (broadcastInDim Sqw ![0, 1, 2] h2 (broadcastInDim Sq1 ![0, 1] h1
          (uitofp (F := Ideal) .f32 (cmpi .eq (addi (iotaInDim Sq 32 0) (broadcastInDim Sq ![] h0 (constantI Sc 32 0#32)))
            (iotaInDim Sq 32 1)) : FVec Ideal Sq .f32)))
        (broadcastInDim Sqw ![0, 1, 2] h4 (broadcastInDim S1w ![1, 2] h3 W))) h5) h6 : FVec Ideal Sm .bf16) (ix2 k n)
      = (if k = feat n then (1 : EReal) else 0) * W (ix2 (feat n) (chan n)) := by
  rw [truncf_apply, merge_apply, mulf_apply, stretch_eye_apply, stretch_w_apply, eye_apply]

/-- The flattened bias: entry `(0, n)` of the one row is `b (n / 16, n % 16)`. -/
theorem bias_apply (h : Sw.ShapeCasts Srow) (b : Sw.Idx → EReal) (n : Fin 2048) :
    shapeCast Srow b h (ix2 (0 : Fin 1) n) = b (ix2 (feat n) (chan n)) := by
  refine shapeCast_apply b h (ix2 (0 : Fin 1) n) (ix2 (feat n) (chan n)) ?_
  rw [Shape.rowMajor_val_two, Shape.rowMajor_val_two]
  show n.val / 16 * 16 + n.val % 16 = 0 * 2048 + n.val
  omega

end Cert.Embedding

end
-- ==== Proof.KernelValue.lean ====
/-
  The kernel's result array is the embedding.

  The grid has 32 points; point `t` holds tokens `1024 t … 1024 t + 1023` of the flattened `[32768, 128]` token array,
  the whole expanded weight matrix and the whole bias row, and writes back rows `1024 t … 1024 t + 1023` of the
  `[32768, 2048]` output. Entry `(r, n)` of the output is therefore the inner product of token `r` with column `n` of
  the expanded matrix plus the bias at `n`; the column is zero outside feature `n / 16`, so the inner product is the
  one term `token r's feature n / 16 · W (n / 16, n % 16)`. The 32 row blocks tile the output, and the closing
  reshape to `[64, 512, 2048]` splits the row number `r = 512 a + t` back into batch and sequence position, undoing
  the flattening of the tokens.
-/
import proofs.«150258_j39024072851809_1_alg».proof.Proof.Gen.KernelIdeal.Frame
import proofs.«150258_j39024072851809_1_alg».proof.Proof.KernelBody
import proofs.«150258_j39024072851809_1_alg».proof.Proof.HostWeights
import proofs.«150258_j39024072851809_1_alg».proof.Proof.Spec
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Body Cert.Embedding Idealize.ShloMosaic.ValueIdx
open scoped BigOperators

variable (m : (ℓ : Loc nD τ sig) → Buf (Elt Ideal) ℓ) (ρ : Dev nD → PrngReg)

theorem hz : (![0, 0] : Fin 2 → Nat) = fun _ => 0 := funext fun a => by fin_cases a <;> rfl

/-! ## The embedding over flattened tokens -/

/-- The output as the region writes it, over the flattened `[32768, 128]` tokens: row `r`, column `n`. -/
def rowsEmbed (X : S32768x128.Idx → EReal) (W b : S128x16.Idx → EReal) : S32768x2048.Idx → EReal :=
  fun i => X (ix2 (i 0) (feat (i 1))) * W (ix2 (feat (i 1)) (chan (i 1))) + b (ix2 (feat (i 1)) (chan (i 1)))

/-- One stored entry is one entry of `rowsEmbed`, when the token block's row is row `i 0` of the tokens, the column is
    column `i 1`, the matrix block is the expanded weights and the bias block the flattened bias. -/
theorem stored_eq (x0 : Vec Ideal S1024x128 .f32) (x1 : Vec Ideal S128x2048 .bf16) (x2 : Vec Ideal S1x2048 .f32)
    (X : S32768x128.Idx → EReal) (W b : S128x16.Idx → EReal) (p : Fin 1024) (q : Fin 2048) (r : Fin 32768)
    (hrow : ∀ k : Fin 128, x0 (ix2 p k) = X (ix2 r k))
    (hmat : ∀ (k : Fin 128) (n : Fin 2048), x1 (ix2 k n) = (if k = feat n then (1 : EReal) else 0) * W (ix2 (feat n) (chan n)))
    (hbias : ∀ n : Fin 2048, x2 (ix2 (0 : Fin 1) n) = b (ix2 (feat n) (chan n))) :
    k0_pay1 (F := Ideal) x0 x1 x2 (ix2 p q) = rowsEmbed X W b (ix2 r q) := by
  rw [stored_apply]
  show _ = X (ix2 r (feat q)) * W (ix2 (feat q) (chan q)) + b (ix2 (feat q) (chan q))
  simp only [hrow, hmat, hbias]
  rw [sum_diag (fun k => X (ix2 r k))]

/-! ## What the region finds in its three input arrays -/

/-- The token array: the first argument flattened to `[32768, 128]`. -/
theorem tokens_eq (c : Dev nD) : (V m c main_v0 : S32768x128.Idx → EReal)
    = shapeCast S32768x128 (m ((c : Thread nD τ).loc main_arg0)) shapeCasts_S64x512x128_S32768x128 := by
  show StableHlo.after hostOps0 (fun b => m (c, b)) (Proc.devRef .tc main_v0) = _
  after_results
  rfl

/-- The matrix: the weights expanded along the identity pattern. -/
theorem matrix_eq (c : Dev nD) : (V m c main_v13 : S128x2048.Idx → EReal)
    = truncf (F := Ideal) .bf16 (shapeCast S128x2048 (mulf (F := Ideal) (φ := .f32)
        (broadcastInDim S128x128x16 ![0, 1, 2] bcast_S128x128x1_S128x128x16_0_1_2 (broadcastInDim S128x128x1 ![0, 1] bcast_S128x128_S128x128x1_0_1
          (uitofp (F := Ideal) .f32 (cmpi .eq (addi (iotaInDim S128x128 32 0) (broadcastInDim S128x128 ![] bcast_S_S128x128 (constantI S_ 32 0#32)))
            (iotaInDim S128x128 32 1)) : FVec Ideal S128x128 .f32)))
        (broadcastInDim S128x128x16 ![0, 1, 2] bcast_S1x128x16_S128x128x16_0_1_2 (broadcastInDim S1x128x16 ![1, 2] bcast_S128x16_S1x128x16_1_2
          (m ((c : Thread nD τ).loc main_arg1))))) shapeCasts_S128x128x16_S128x2048) bitsLt_bf16_f32 := by
  show StableHlo.after hostOps0 (fun b => m (c, b)) (Proc.devRef .tc main_v13) = _
  after_results
  rfl

/-- The bias row: the third argument flattened to `[1, 2048]`. -/
theorem biasrow_eq (c : Dev nD) : (V m c main_v14 : S1x2048.Idx → EReal)
    = shapeCast S1x2048 (m ((c : Thread nD τ).loc main_arg2)) shapeCasts_S128x16_S1x2048 := by
  show StableHlo.after hostOps0 (fun b => m (c, b)) (Proc.devRef .tc main_v14) = _
  after_results
  rfl

/-- Entry `(k, n)` of the matrix: the weight of column `n`'s feature and channel on that feature's row, zero elsewhere. -/
theorem matrix_apply (c : Dev nD) (k : Fin 128) (n : Fin 2048) :
    (V m c main_v13 : S128x2048.Idx → EReal) (ix2 k n)
      = (if k = feat n then (1 : EReal) else 0) * m ((c : Thread nD τ).loc main_arg1) (ix2 (feat n) (chan n)) :=
  (congrFun (matrix_eq m c) (ix2 k n)).trans (weights_apply _ _ _ _ _ _ _ _ k n)

/-- Entry `(0, n)` of the bias row: the bias of column `n`'s feature and channel. -/
theorem biasrow_apply (c : Dev nD) (n : Fin 2048) :
    (V m c main_v14 : S1x2048.Idx → EReal) (ix2 (0 : Fin 1) n) = m ((c : Thread nD τ).loc main_arg2) (ix2 (feat n) (chan n)) :=
  (congrFun (biasrow_eq m c) (ix2 (0 : Fin 1) n)).trans (bias_apply _ _ n)

/-! ## The blocks at a grid point -/

/-- The index maps over the grid: the token and output windows move down one block per point, the matrix and bias
    windows stay on their one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row `p` of point `t`'s token block is row `1024 t + p` of the tokens. -/
theorem tokens_blk (c : Dev nD) (t : Fin cfg0.N) (p : Fin 1024) (k : Fin 128) (r : Fin 32768) (hr : r.val = t.val * 1024 + p.val) :
    iblk m c 0 t (ix2 p k) = (V m c main_v0 : S32768x128.Idx → EReal) (ix2 r k) := by
  obtain ⟨e0, e1, -⟩ := idx_facts t
  show V m c main_v0 (((cfg0.win 0).blk t).view.emb (ix2 p k)) = V m c main_v0 (ix2 r k)
  refine congrArg _ (funext fun a => Fin.ext ?_)
  match a with
  | ⟨0, _⟩ => show win0_0.index t (0 : Fin 2) * 1024 + 1 * p.val = r.val; omega
  | ⟨1, _⟩ => show win0_0.index t (1 : Fin 2) * 128 + 1 * k.val = k.val; omega

/-- The matrix block at every point is the whole matrix. -/
theorem matrix_blk (c : Dev nD) (t : Fin cfg0.N) (k : Fin 128) (n : Fin 2048) :
    iblk m c 1 t (ix2 k n) = (V m c main_v13 : S128x2048.Idx → EReal) (ix2 k n) := by
  obtain ⟨-, -, e2, e3, -⟩ := idx_facts t
  show V m c main_v13 (((cfg0.win 1).blk t).view.emb (ix2 k n)) = V m c main_v13 (ix2 k n)
  refine congrArg _ (funext fun a => Fin.ext ?_)
  match a with
  | ⟨0, _⟩ => show win0_1.index t (0 : Fin 2) * 128 + 1 * k.val = k.val; omega
  | ⟨1, _⟩ => show win0_1.index t (1 : Fin 2) * 2048 + 1 * n.val = n.val; omega

/-- The bias block at every point is the whole bias row. -/
theorem biasrow_blk (c : Dev nD) (t : Fin cfg0.N) (n : Fin 2048) :
    iblk m c 2 t (ix2 (0 : Fin 1) n) = (V m c main_v14 : S1x2048.Idx → EReal) (ix2 (0 : Fin 1) n) := by
  obtain ⟨-, -, -, -, e4, e5, -⟩ := idx_facts t
  show V m c main_v14 (((cfg0.win 2).blk t).view.emb (ix2 (0 : Fin 1) n)) = V m c main_v14 (ix2 (0 : Fin 1) n)
  refine congrArg _ (funext fun a => Fin.ext ?_)
  match a with
  | ⟨0, _⟩ => show win0_2.index t (0 : Fin 2) * 1 + 1 * 0 = 0; omega
  | ⟨1, _⟩ => show win0_2.index t (1 : Fin 2) * 2048 + 1 * n.val = n.val; omega

/-! ## From the blocks to the output array -/

/-- What point `t` writes back is block `t` of `rowsEmbed` of the tokens, the weights and the bias. -/
theorem flushed_eq (c : Dev nD) (t : Fin cfg0.N) :
    (dats m 0 c).flushed 3 t = ((cfg0.win 3).blk t).view.read (Elt Ideal)
      (rowsEmbed (V m c main_v0) (m ((c : Thread nD τ).loc main_arg1)) (m ((c : Thread nD τ).loc main_arg2))) := by
  show (cfg0.win 3).cut (grid0.coords t) ((dats m 0 c).after 3 t) = _
  rw [after0_3]
  unfold out0_3
  rw [View.canon_unit_zero hz]
  simp only [View.ld_unit_zero (S := S1024x128) hz, View.ld_unit_zero (S := S128x2048) hz, View.ld_unit_zero (S := S1x2048) hz]
  obtain ⟨-, -, -, -, -, -, e6, e7⟩ := idx_facts t
  have ht : t.val < 32 := lt_of_lt_of_eq t.isLt N_0
  funext j
  obtain ⟨p, q, rfl⟩ : ∃ (p : Fin 1024) (q : Fin 2048), j = ix2 p q := ⟨j 0, j 1, eq_ix2 j⟩
  have hemb : ((cfg0.win 3).blk t).view.emb (ix2 p q) = ix2 (⟨t.val * 1024 + p.val, by have := p.isLt; omega⟩ : Fin 32768) q := by
    funext a
    apply Fin.ext
    match a with
    | ⟨0, _⟩ => show win0_3.index t (0 : Fin 2) * 1024 + 1 * p.val = t.val * 1024 + p.val; omega
    | ⟨1, _⟩ => show win0_3.index t (1 : Fin 2) * 2048 + 1 * q.val = q.val; omega
  show k0_pay1 (F := Ideal) (iblk m c 0 t) (iblk m c 1 t) (iblk m c 2 t) (ix2 p q)
    = rowsEmbed (V m c main_v0) (m ((c : Thread nD τ).loc main_arg1)) (m ((c : Thread nD τ).loc main_arg2)) (((cfg0.win 3).blk t).view.emb (ix2 p q))
  rw [hemb]
  exact stored_eq (iblk m c 0 t) (iblk m c 1 t) (iblk m c 2 t) (V m c main_v0) (m ((c : Thread nD τ).loc main_arg1))
    (m ((c : Thread nD τ).loc main_arg2)) p q ⟨t.val * 1024 + p.val, by have := p.isLt; omega⟩
    (fun k => tokens_blk m c t p k _ rfl)
    (fun k n => (matrix_blk m c t k n).trans (matrix_apply m c k n))
    (fun n => (biasrow_blk m c t n).trans (biasrow_apply m c n))

/-- An index of the output is in point `t`'s block iff each coordinate is in the block's range on its axis. -/
theorem mem_blk (t : Fin cfg0.N) (i : S32768x2048.Idx) :
    i ∈ ((cfg0.win 3).blk t).view.set ↔ ∀ a : Fin 2, win0_3.index t a * S1024x2048.size a ≤ (i a).val ∧ (i a).val < win0_3.index t a * S1024x2048.size a + S1024x2048.size a := by
  show i ∈ ((View.whole main_v15).slice (win0_3.rect t)).set ↔ _
  rw [View.set_slice_whole, Rect.mem_set_unit]
  exact Iff.rfl

/-- The 32 row blocks tile the output: row `r` is in the block of point `r / 1024`. -/
theorem cover (i : S32768x2048.Idx) : ∃ t : Fin cfg0.N, (cfg0.win 3).flush t = true ∧ i ∈ ((cfg0.win 3).blk t).view.set := by
  have hi0 : (i 0).val < 32768 := (i 0).isLt
  have hi1 : (i 1).val < 2048 := (i 1).isLt
  have hN : cfg0.N = 32 := N_0
  let t : Fin cfg0.N := ⟨(i 0).val / 1024, by rw [hN]; omega⟩
  obtain ⟨-, -, -, -, -, -, e6, e7⟩ := idx_facts t
  have htv : t.val = (i 0).val / 1024 := rfl
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 2048 ≤ (i 1).val ∧ (i 1).val < win0_3.index t (1 : Fin 2) * 2048 + 2048; omega

/-- The output array after the region. -/
theorem final (c : Dev nD) : (dats m 0 c).arrAt 3 cfg0.N
    = rowsEmbed (V m c main_v0) (m ((c : Thread nD τ).loc main_arg1)) (m ((c : Thread nD τ).loc main_arg2)) :=
  (dats m 0 c).arrAt_eq_of_cover 3 _ (fun t _ => flushed_eq m c t) cover

/-! ## The closing reshape and the run -/

/-- Splitting the row number back into batch and sequence position undoes the flattening of the tokens: the
    `[32768, 2048]` array of `rowsEmbed` over flattened tokens, reshaped to `[64, 512, 2048]`, is the embedding. -/
theorem unflatten (x : S64x512x128.Idx → EReal) (W b : S128x16.Idx → EReal) :
    shapeCast S64x512x2048 (rowsEmbed (shapeCast S32768x128 x shapeCasts_S64x512x128_S32768x128) W b) shapeCasts_S32768x2048_S64x512x2048
      = embed x W b := by
  funext i
  obtain ⟨a, t, n, rfl⟩ : ∃ (a : Fin 64) (t : Fin 512) (n : Fin 2048), i = ix3 a t n := ⟨i 0, i 1, i 2, eq_ix3 i⟩
  have ha := a.isLt
  have ht := t.isLt
  have hn := n.isLt
  rw [shapeCast_apply _ shapeCasts_S32768x2048_S64x512x2048 (ix3 a t n) (ix2 (⟨a.val * 512 + t.val, by omega⟩ : Fin 32768) n)
    (by rw [Shape.rowMajor_val_two, Shape.rowMajor_val_three]; show (a.val * 512 + t.val) * 2048 + n.val = (a.val * 512 + t.val) * 2048 + n.val; rfl)]
  show shapeCast S32768x128 x shapeCasts_S64x512x128_S32768x128 (ix2 (⟨a.val * 512 + t.val, by omega⟩ : Fin 32768) (feat n)) * W (ix2 (feat n) (chan n)) + b (ix2 (feat n) (chan n))
    = x (ix3 a t (feat n)) * W (ix2 (feat n) (chan n)) + b (ix2 (feat n) (chan n))
  rw [shapeCast_apply x shapeCasts_S64x512x128_S32768x128 (ix2 (⟨a.val * 512 + t.val, by omega⟩ : Fin 32768) (feat n)) (ix3 a t (feat n))
    (by rw [Shape.rowMajor_val_two, Shape.rowMajor_val_three]; show (a.val * 512 + t.val) * 128 + n.val / 16 = (a.val * 512 + t.val) * 128 + n.val / 16; rfl)]

/-- The result buffer after the closing reshape: the embedding of the three arguments. -/
theorem result_eq (c : Dev nD) : Pipeline.afterTail₀ cfgs (dats m) 0 (V0 m) [hostOps1] c main_v16
    = embed (m ((c : Thread nD τ).loc main_arg0)) (m ((c : Thread nD τ).loc main_arg1)) (m ((c : Thread nD τ).loc main_arg2)) := by
  unfold Pipeline.afterTail₀
  show StableHlo.after hostOps1 _ (Proc.devRef .tc main_v16) = _
  after_results
  have hw := (Pipeline.withArrays_arr spec0 launch0.win.arr_inj c (V0 m c) (fun w => (dats m 0 c).arrAt w cfg0.N) 3).trans (final m c)
  refine Eq.trans ?_ (unflatten _ _ _)
  rw [← tokens_eq m c, ← hw]
  rfl

/-- THE RUN: every weakly fair execution of the program ends with the result buffer at the embedding of the three
    arguments, and the arguments as they were. -/
theorem run : θ_run defs (onTc (τ := τ) (main (F := Ideal))) ⟨m, fun _ => 0, ρ⟩ fun r => ∀ c : Dev nD,
      r.2.mem ((c.tc : Thread nD τ).loc main_v16)
        = embed (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v16 (Pipeline.mem_restRefs_of main_v16 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KValue

end
-- ==== Proof.RefValue.lean ====
/-
  The reference computes the embedding.

  The reference gives the tokens a trailing unit axis and stretches them along the 16 channels, gives the weights and
  the bias two leading unit axes and stretches them along batch and sequence, multiplies, adds, and merges the
  feature and channel axes. Read at `(a, t, n)`, the merged array is the four-axis array at `(a, t, n / 16, n % 16)`,
  where the product is `x (a, t, n / 16) · W (n / 16, n % 16)` and the summand `b (n / 16, n % 16)`.
-/
import proofs.«150258_j39024072851809_1_alg».proof.Proof.Gen.ReferenceIdeal.Read
import proofs.«150258_j39024072851809_1_alg».proof.Proof.Spec

noncomputable section

namespace Cert.ReferenceIdeal.RefValue

open Cert.ReferenceIdeal Cert.ReferenceIdeal.Read Cert.Embedding Idealize.ShloMosaic Idealize.ShloMosaic.ValueIdx

/-- Position `(a, t, n)` of the merged result, followed back to the token array: `(a, t, n / 16)`. -/
theorem idx_x (i : S64x512x2048.Idx) :
    idx_main_v0 (idx_main_v2 (idx_main_v8 i)) = ix3 (i 0) (i 1) (feat (i 2)) := by
  have h0 : (i 0).val < 64 := (i 0).isLt
  have h1 : (i 1).val < 512 := (i 1).isLt
  have h2 : (i 2).val < 2048 := (i 2).isLt
  funext a
  apply Fin.ext
  match a with
  | ⟨0, _⟩ => show (((i 0).val * 512 + (i 1).val) * 2048 + (i 2).val) / 1048576 = (i 0).val; omega
  | ⟨1, _⟩ => show (((i 0).val * 512 + (i 1).val) * 2048 + (i 2).val) / 2048 % 512 = (i 1).val; omega
  | ⟨2, _⟩ => show (((i 0).val * 512 + (i 1).val) * 2048 + (i 2).val) / 16 % 128 = (i 2).val / 16; omega

/-- The same position followed back to the weights: `(n / 16, n % 16)`. -/
theorem idx_w (i : S64x512x2048.Idx) :
    idx_main_v1 (idx_main_v3 (idx_main_v8 i)) = ix2 (feat (i 2)) (chan (i 2)) := by
  have h0 : (i 0).val < 64 := (i 0).isLt
  have h1 : (i 1).val < 512 := (i 1).isLt
  have h2 : (i 2).val < 2048 := (i 2).isLt
  funext a
  apply Fin.ext
  match a with
  | ⟨0, _⟩ => show (((i 0).val * 512 + (i 1).val) * 2048 + (i 2).val) / 16 % 128 = (i 2).val / 16; omega
  | ⟨1, _⟩ => show (((i 0).val * 512 + (i 1).val) * 2048 + (i 2).val) % 16 = (i 2).val % 16; omega

/-- And to the bias: the same `(n / 16, n % 16)`. -/
theorem idx_b (i : S64x512x2048.Idx) :
    idx_main_v5 (idx_main_v6 (idx_main_v8 i)) = ix2 (feat (i 2)) (chan (i 2)) := idx_w i

/-- The reference's result is the embedding of its three arguments. -/
theorem result_eq (x : FVec Ideal S64x512x128 .f32) (W b : FVec Ideal S128x16 .f32) :
    val_main_v8 (F := Ideal) x W b = embed x W b := by
  funext i
  rw [val_main_v8_apply, val_main_v7_apply, val_main_v4_apply, val_main_v2_apply, val_main_v0_apply,
    val_main_v3_apply, val_main_v1_apply, val_main_v6_apply, val_main_v5_apply, idx_x, idx_w, idx_b]
  rfl

end Cert.ReferenceIdeal.RefValue

end
-- ==== Proof.lean ====
/-
  A per-feature affine embedding, computed two ways, is one function of its arguments.

  Tokens `x : [64, 512, 128]`, weights `W : [128, 16]` and bias `b : [128, 16]` go to `[64, 512, 2048]`:
  column `n` of a token's output is `x (·, ·, n / 16) · W (n / 16, n % 16) + b (n / 16, n % 16)` — feature `i` scaled
  and shifted into its own group of sixteen channels (Proof/Spec.lean, `embed`).

  The reference stretches the three arrays to `[64, 512, 128, 16]`, multiplies and adds entry by entry, and merges the
  last two axes (Proof/RefValue.lean). The kernel flattens the tokens to `[32768, 128]`, expands the weights into a
  `[128, 2048]` matrix that carries row `i` of `W` in the columns of feature `i` and zero elsewhere
  (Proof/HostWeights.lean), and over 32 row blocks multiplies tokens into that matrix and adds the flattened bias
  (Proof/KernelBody.lean). Each inner product has one non-zero term, because `0 · y = y · 0 = 0` for every extended
  real `y`, so an output entry is again `x · W + b` at the feature and channel of its column (Proof/KernelValue.lean);
  the law holds at the infinities too, so the finiteness of the inputs is never used. Read over the extended reals the
  kernel's text is unchanged, so the statement relating the two readings has no conjunct.
-/
import proofs.«150258_j39024072851809_1_alg».proof.Defs
import proofs.«150258_j39024072851809_1_alg».proof.Proof.Gen.Kernel
import proofs.«150258_j39024072851809_1_alg».proof.Proof.Gen.Kernel.Skeleton
import proofs.«150258_j39024072851809_1_alg».proof.Proof.Gen.Kernel.Launch
import proofs.«150258_j39024072851809_1_alg».proof.Proof.Gen.Kernel.Points
import proofs.«150258_j39024072851809_1_alg».proof.Proof.Gen.Kernel.Frame
import proofs.«150258_j39024072851809_1_alg».proof.Proof.Gen.KernelIdeal
import proofs.«150258_j39024072851809_1_alg».proof.Proof.Gen.KernelIdeal.Skeleton
import proofs.«150258_j39024072851809_1_alg».proof.Proof.Gen.KernelIdeal.Launch
import proofs.«150258_j39024072851809_1_alg».proof.Proof.Gen.KernelIdeal.Points
import proofs.«150258_j39024072851809_1_alg».proof.Proof.Gen.KernelIdeal.Frame
import proofs.«150258_j39024072851809_1_alg».proof.Proof.Gen.ReferenceIdeal
import proofs.«150258_j39024072851809_1_alg».proof.Proof.Gen.Pre_finite_inputs
import proofs.«150258_j39024072851809_1_alg».proof.Proof.Gen.ReferenceIdeal.Run
import proofs.«150258_j39024072851809_1_alg».proof.Proof.Gen.ReferenceIdeal.Read
import proofs.«150258_j39024072851809_1_alg».proof.Proof.KernelValue
import proofs.«150258_j39024072851809_1_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the ideal reading. -/
theorem preserves : Cert.preserves_Kernel_KernelIdeal := trivial

/-- Both programs end with the embedding of the arguments in their result buffers. -/
theorem algebraic : Cert.algebraic_KernelIdeal_ReferenceIdeal := by
  intro m ρ m' ρ' _ hagree
  refine ⟨fun c => Cert.Embedding.embed
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
